-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S3200000 32) (main_arg2 : IVec S3200000 32) (main_arg3 : FVec F S1433x16 .f32) (main_arg4 : FVec F S16 .f32) (main_arg5 : FVec F S16x7 .f32) (main_arg6 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg3
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg5
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg6 main_v13 main_v16
-- ==== Kernel.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x1433 : Shape := ⟨2, ![2000, 1433]⟩
abbrev S2000x1 : Shape := ⟨2, ![2000, 1]⟩
abbrev S2000x16 : Shape := ⟨2, ![2000, 16]⟩
abbrev S3200000x16 : Shape := ⟨2, ![3200000, 16]⟩
abbrev S1x16 : Shape := ⟨2, ![1, 16]⟩
abbrev S100000x7 : Shape := ⟨2, ![100000, 7]⟩
abbrev S2000x7 : Shape := ⟨2, ![2000, 7]⟩
abbrev S3200000x7 : Shape := ⟨2, ![3200000, 7]⟩
abbrev S1x7 : Shape := ⟨2, ![1, 7]⟩

abbrev nBuf : Space → Nat
  | .hbm => 70
  | .vmem => 14
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x1, .f32⟩
  | .hbm, ⟨41, _⟩ => ⟨S100000x16, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S100000x1, .f32⟩
  | .hbm, ⟨50, _⟩ => ⟨S100000x7, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x7, .f32⟩
  | .hbm, ⟨60, _⟩ => ⟨S_, .f32⟩
  | .hbm, ⟨61, _⟩ => ⟨S100000x7, .f32⟩
  | .hbm, ⟨62, _⟩ => ⟨S3200000x1, .i32⟩
  | .hbm, ⟨63, _⟩ => ⟨S100000x7, .f32⟩
  | .hbm, ⟨64, _⟩ => ⟨S100000x1, .f32⟩
  | .hbm, ⟨65, _⟩ => ⟨S100000x7, .f32⟩
  | .hbm, ⟨66, _⟩ => ⟨S100000x7, .f32⟩
  | .hbm, ⟨67, _⟩ => ⟨S1x7, .f32⟩
  | .hbm, ⟨68, _⟩ => ⟨S100000x7, .f32⟩
  | .hbm, ⟨69, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S2000x1, .f32⟩
  | .local _ .vmem, ⟨3, _⟩ => ⟨S2000x1, .f32⟩
  | .local _ .vmem, ⟨4, _⟩ => ⟨S1433x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S16x7, .f32⟩
  | .local _ .vmem, ⟨12, _⟩ => ⟨S2000x7, .f32⟩
  | .local _ .vmem, ⟨13, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1433x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x1433_S2000x1433_0_0 : ∀ a, (![0, 0] : Fin 2 → Nat) a + S2000x1433.size a ≤ S2000x1433.size a
  h_S2000x1433 : 0 < S2000x1433.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1433 : S2000x1.Broadcasts S2000x1433
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  broadcasts_S2000x1_S2000x16 : S2000x1.Broadcasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S2000x1433_S1433x16_S2000x16_1_0_0_1_n_n_wf : DotDims.WF S2000x1433 S1433x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x7_S2000x7_1_0_0_1_n_n_wf : DotDims.WF S2000x16 S16x7 S2000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x16.size a ≤ S1433x16.size a
  hwx0_2 : ∀ i : grid0.Coords, EltTy.bits .f32 = 32 ∨ (Rect.block (s := S1433x16) S1433x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x7.size a ≤ S100000x7.size a
  hwx1_3 : ∀ i : grid1.Coords, EltTy.bits .f32 = 32 ∨ (Rect.block (s := S100000x7) S2000x7.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1433x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S2000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 74
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1433, .f32⟩
  | .hbm, ⟨27, _⟩ => ⟨S100000x1433, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S100000x7, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x7, .f32⟩
  | .hbm, ⟨64, _⟩ => ⟨S_, .f32⟩
  | .hbm, ⟨65, _⟩ => ⟨S100000x7, .f32⟩
  | .hbm, ⟨66, _⟩ => ⟨S3200000x1, .i32⟩
  | .hbm, ⟨67, _⟩ => ⟨S100000x7, .f32⟩
  | .hbm, ⟨68, _⟩ => ⟨S100000x1, .f32⟩
  | .hbm, ⟨69, _⟩ => ⟨S100000x7, .f32⟩
  | .hbm, ⟨70, _⟩ => ⟨S100000x7, .f32⟩
  | .hbm, ⟨71, _⟩ => ⟨S1x7, .f32⟩
  | .hbm, ⟨72, _⟩ => ⟨S100000x7, .f32⟩
  | .hbm, ⟨73, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x1433_0_1 : S100000x1.BroadcastsInDim S100000x1433 (![0, 1] : Fin 2 → Fin S100000x1433.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.ScaledProduct.lean ====
/-
  The row-scaled matrix product.

  For an M × K array x, a column of M scales s and a K × N array w, the array

      P (i, j) = ∑ q, (x (i, q) · s (i, 0)) · w (q, j)

  is what both programs compute at each of their two projection steps. The kernel computes it block by block: on a
  block of rows it broadcasts the block's scales along the rows, multiplies entry by entry and takes the product with w
  into an all-zero accumulator. The reference computes it on the whole arrays: it broadcasts the vector of scales to the
  shape of x, multiplies entry by entry and takes the host's product with w. Read at an entry, each is the sum above
  term by term: a product of matrices is the sum over the contracted coordinate, a broadcast along the rows reads the
  row's scale, and a vector reshaped into a column holds at (i, 0) what the vector holds at i. No law of the extended
  reals is used beyond renaming the index of the sum.
-/
import Idealize.ShloMosaic.PureOps.Ideal.Laws
import Idealize.ShloMosaic.Lib.ValueIdx
import Idealize.ShloMosaic.Lib.Pipeline.Value
import proofs.«166398_j17858474016867_1_alg».proof.Proof.LibDotPlain

noncomputable section

open scoped BigOperators

namespace Cert.ScaledProduct

open Idealize.ShloMosaic Idealize.ShloMosaic.ValueIdx Cert.LibDotPlain

variable {M K N : Nat}

/-- Row i of x multiplied through by the i-th scale, times w: entry (i, j) is the sum over q of
    (x (i, q) · s (i, 0)) · w (q, j). -/
def scaledProduct (x : FVec Ideal ⟨2, ![M, K]⟩ .f32) (s : FVec Ideal ⟨2, ![M, 1]⟩ .f32)
    (w : FVec Ideal ⟨2, ![K, N]⟩ .f32) : FVec Ideal ⟨2, ![M, N]⟩ .f32 :=
  fun e => ∑ q : Fin K, (x (ix2 (e 0) q) * s (ix2 (e 0) 0)) * w (ix2 q (e 1))

theorem scaledProduct_apply (x : FVec Ideal ⟨2, ![M, K]⟩ .f32) (s : FVec Ideal ⟨2, ![M, 1]⟩ .f32)
    (w : FVec Ideal ⟨2, ![K, N]⟩ .f32) (i : Fin M) (j : Fin N) :
    scaledProduct x s w (ix2 i j) = ∑ q : Fin K, (x (ix2 i q) * s (ix2 i 0)) * w (ix2 q j) := rfl

/-- A column of scales broadcast along the rows of an M × K array holds at (i, q) the scale of row i. -/
theorem column_broadcast (s : FVec Ideal ⟨2, ![M, 1]⟩ .f32)
    (hb : (⟨2, ![M, 1]⟩ : Shape).Broadcasts ⟨2, ![M, K]⟩) (i : Fin M) (q : Fin K) :
    broadcastTo ⟨2, ![M, K]⟩ s hb (ix2 i q) = s (ix2 i 0) := by
  refine broadcastTo_apply s hb (ix2 i q) (ix2 i 0) fun a => ?_
  match a with
  | ⟨0, _⟩ =>
    show i.val = if M = 1 then 0 else i.val
    split_ifs with h
    · have := i.isLt; omega
    · rfl
  | ⟨1, _⟩ => rfl

/-- THE KERNEL'S BLOCK: the rows of x scaled by the column s (cast to its own shape, then broadcast along the rows),
    times w into the all-zero array, is the row-scaled product, entry by entry. -/
theorem block_payload (prec : Option ContractPrecision) (x : FVec Ideal ⟨2, ![M, K]⟩ .f32)
    (s : FVec Ideal ⟨2, ![M, 1]⟩ .f32) (w : FVec Ideal ⟨2, ![K, N]⟩ .f32)
    (hsc : (⟨2, ![M, 1]⟩ : Shape).ShapeCasts ⟨2, ![M, 1]⟩) (hb : (⟨2, ![M, 1]⟩ : Shape).Broadcasts ⟨2, ![M, K]⟩) :
    FloatOps.matmul (DotDims.plain M K N) prec (mulf x (broadcastTo ⟨2, ![M, K]⟩ (shapeCast ⟨2, ![M, 1]⟩ s hsc) hb)) w
        (constant ⟨2, ![M, N]⟩ .f32 0x00000000#32)
      = scaledProduct x s w := by
  funext e
  obtain ⟨i, j, rfl⟩ : ∃ (i : Fin M) (j : Fin N), e = ix2 i j := ⟨e 0, e 1, eq_ix2 e⟩
  rw [shapeCast_self, matmul_zero_plain, scaledProduct_apply]
  exact Finset.sum_congr rfl fun q _ => by rw [mulf_apply, column_broadcast]

/-- A vector of M scales made a column by two broadcasts (first to M × 1, then along the rows of an M × K array) holds
    at (i, q) the scale of row i. -/
theorem vector_broadcast (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, K]⟩ ![0, 1]) (i : Fin M) (q : Fin K) :
    broadcastInDim ⟨2, ![M, K]⟩ ![0, 1] h2 (broadcastInDim ⟨2, ![M, 1]⟩ ![0] h1 v) (ix2 i q) = v (ix1 i) := by
  rw [broadcastInDim_apply ![0, 1] h2 _ (ix2 i q) (ix2 i 0) fun a => ?_,
    broadcastInDim_apply ![0] h1 v (ix2 i 0) (ix1 i) fun a => ?_]
  · match a with
    | ⟨0, _⟩ =>
      show i.val = if M = 1 then 0 else i.val
      split_ifs with h
      · have := i.isLt; omega
      · rfl
  · match a with
    | ⟨0, _⟩ =>
      show i.val = if M = 1 then 0 else i.val
      split_ifs with h
      · have := i.isLt; omega
      · rfl
    | ⟨1, _⟩ => rfl

/-- A vector of M scales reshaped into an M × 1 column holds at (i, 0) what the vector holds at i. -/
theorem vector_as_column (v : FVec Ideal ⟨1, ![M]⟩ .f32)
    (hr : (⟨1, ![M]⟩ : Shape).ShapeCasts ⟨2, ![M, 1]⟩) (i : Fin M) :
    shapeCast ⟨2, ![M, 1]⟩ v hr (ix2 i 0) = v (ix1 i) := by
  refine shapeCast_apply v hr (ix2 i 0) (ix1 i) ?_
  rw [Shape.rowMajor_val_one, Shape.rowMajor_val_two]
  show i.val = i.val * 1 + 0
  omega

/-- THE REFERENCE'S STAGE: x times the scales broadcast to its shape, then the host's product with w, is the row-scaled
    product of x, the scales reshaped into a column, and w. -/
theorem host_stage (prec : Option ContractPrecision) (sched : HostSchedule) (x : FVec Ideal ⟨2, ![M, K]⟩ .f32)
    (v : FVec Ideal ⟨1, ![M]⟩ .f32) (w : FVec Ideal ⟨2, ![K, N]⟩ .f32)
    (h1 : (⟨1, ![M]⟩ : Shape).BroadcastsInDim ⟨2, ![M, 1]⟩ ![0])
    (h2 : (⟨2, ![M, 1]⟩ : Shape).BroadcastsInDim ⟨2, ![M, K]⟩ ![0, 1])
    (hr : (⟨1, ![M]⟩ : Shape).ShapeCasts ⟨2, ![M, 1]⟩) :
    FloatOps.dotGeneral (DotDims.plain M K N) prec sched
        (mulf x (broadcastInDim ⟨2, ![M, K]⟩ ![0, 1] h2 (broadcastInDim ⟨2, ![M, 1]⟩ ![0] h1 v))) w
      = scaledProduct x (shapeCast ⟨2, ![M, 1]⟩ v hr) w := by
  funext e
  obtain ⟨i, j, rfl⟩ : ∃ (i : Fin M) (j : Fin N), e = ix2 i j := ⟨e 0, e 1, eq_ix2 e⟩
  rw [dotGeneral_plain, scaledProduct_apply]
  exact Finset.sum_congr rfl fun q _ => by rw [mulf_apply, vector_broadcast, vector_as_column]

/-- ROWS OF THE PRODUCT: if row p of the blocks xb and sb is row i of the arrays x and s, and column j of wb is column j
    of w, then entry (p, j) of the blocks' row-scaled product is entry (i, j) of the arrays'. (A row of the product
    depends on that row of x, that row's scale, and all of w.) -/
theorem scaledProduct_rows {Mb : Nat} (x : FVec Ideal ⟨2, ![M, K]⟩ .f32) (s : FVec Ideal ⟨2, ![M, 1]⟩ .f32)
    (w : FVec Ideal ⟨2, ![K, N]⟩ .f32) (xb : FVec Ideal ⟨2, ![Mb, K]⟩ .f32) (sb : FVec Ideal ⟨2, ![Mb, 1]⟩ .f32)
    (wb : FVec Ideal ⟨2, ![K, N]⟩ .f32) (p : Fin Mb) (i : Fin M) (j : Fin N)
    (hx : ∀ q : Fin K, xb (ix2 p q) = x (ix2 i q)) (hs : sb (ix2 p 0) = s (ix2 i 0))
    (hw : ∀ q : Fin K, wb (ix2 q j) = w (ix2 q j)) :
    scaledProduct xb sb wb (ix2 p j) = scaledProduct x s w (ix2 i j) := by
  rw [scaledProduct_apply, scaledProduct_apply]
  exact Finset.sum_congr rfl fun q _ => by rw [hx q, hs, hw q]

end Cert.ScaledProduct
-- ==== Proof.FirstProjection.lean ====
/-
  The first projection, from blocks to the whole array.

  The first kernel region is gridded over 50 blocks of 2000 rows. At block t it reads rows 2000 t … 2000 t + 1999 of the
  100000 × 1433 array x and of the 100000 × 1 column of scales s, reads all of the 1433 × 16 array w, and writes back rows
  2000 t … 2000 t + 1999 of the 100000 × 16 result: the row-scaled product of the blocks it read. A row of the
  row-scaled product depends only on that row of x, that row's scale and w, so what block t writes back is rows
  2000 t … of the row-scaled product of the WHOLE arrays; and the 50 blocks cover every row (row r lies in block
  r / 2000). Hence after the region the result array holds the row-scaled product of x, s and w as the region found
  them, whatever those contents are.
-/
import proofs.«166398_j17858474016867_1_alg».proof.Proof.Gen.KernelIdeal.Frame
import proofs.«166398_j17858474016867_1_alg».proof.Proof.ScaledProduct
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FirstProjection

open Cert.KernelIdeal Cert.KernelIdeal.Gen Cert.ScaledProduct

-- the buffers' contents when the region is entered: any
variable (V : (c : Dev nD) → (b : Ref sig .tc) → Buf (Elt Ideal) ((c : Thread nD τ).loc b))

/-- The three arrays the region reads, as it finds them. -/
abbrev xArr (c : Dev nD) : FVec Ideal ⟨2, ![100000, 1433]⟩ .f32 := V c main_arg0
abbrev sArr (c : Dev nD) : FVec Ideal ⟨2, ![100000, 1]⟩ .f32 := V c main_v13
abbrev wArr (c : Dev nD) : FVec Ideal ⟨2, ![1433, 16]⟩ .f32 := V c main_arg3

theorem zero_offsets : (![0, 0] : Fin 2 → Nat) = fun _ => 0 := funext fun a => by fin_cases a <;> rfl

/-- The body's product is the plain 2000 × 1433 by 1433 × 16 one. -/
theorem dot_plain : dot_S2000x1433_S1433x16_S2000x16_1_0_0_1_n_n = DotDims.plain 2000 1433 16 := rfl

/-- What the body stores is the row-scaled product of the blocks it loaded. -/
theorem payload (x0 : Vec Ideal S2000x1433 .f32) (x1 : Vec Ideal S2000x1 .f32) (x2 : Vec Ideal S1433x16 .f32) :
    k0_pay1 x0 x1 x2 = scaledProduct (M := 2000) (K := 1433) (N := 16) x0 x1 x2 := by
  unfold k0_pay1
  rw [dot_plain]
  exact block_payload none x0 x1 x2 _ _

/-- The block indices over the grid: block t of x, of s and of the result starts at row block t and column block 0; w is
    read whole at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t of x is row 2000 t + p of x. -/
theorem x_block (c : Dev nD) (t : Fin cfg0.N) (p : Fin 2000) (q : Fin 1433) (i : Fin 100000)
    (hi : i.val = t.val * 2000 + p.val) :
    (iblk0 V c 0 t : Vec Ideal S2000x1433 .f32) (ix2 p q) = xArr V c (ix2 i q) := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 2000 + 1 * p.val = i.val; rw [e0, hi]; omega
  | ⟨1, _⟩ => show win0_0.index t 1 * 1433 + 1 * q.val = q.val; rw [e1]; omega

/-- Row p of block t of the scales is row 2000 t + p of the scales. -/
theorem s_block (c : Dev nD) (t : Fin cfg0.N) (p : Fin 2000) (i : Fin 100000)
    (hi : i.val = t.val * 2000 + p.val) :
    (iblk0 V c 1 t : Vec Ideal S2000x1 .f32) (ix2 p 0) = sArr V c (ix2 i 0) := by
  obtain ⟨-, -, e2, e3, -⟩ := block_indices t
  unfold iblk0
  rw [View.read_apply]
  show V c main_v13 _ = V c main_v13 _
  congr 1
  funext a
  apply Fin.ext
  match a with
  | ⟨0, _⟩ => show win0_1.index t 0 * 2000 + 1 * p.val = i.val; rw [e2, hi]; omega
  | ⟨1, _⟩ => show win0_1.index t 1 * 1 + 1 * (0 : Fin 1).val = (0 : Fin 1).val; rw [e3]; rfl

/-- The block of w at any point is w. -/
theorem w_block (c : Dev nD) (t : Fin cfg0.N) (q : Fin 1433) (j : Fin 16) :
    (iblk0 V c 2 t : Vec Ideal S1433x16 .f32) (ix2 q j) = wArr V c (ix2 q j) := by
  obtain ⟨-, -, -, -, e4, e5, -⟩ := block_indices t
  unfold iblk0
  rw [View.read_apply]
  show V c main_arg3 _ = V c main_arg3 _
  congr 1
  funext a
  apply Fin.ext
  match a with
  | ⟨0, _⟩ => show win0_2.index t 0 * 1433 + 1 * q.val = q.val; rw [e4]; omega
  | ⟨1, _⟩ => show win0_2.index t 1 * 16 + 1 * j.val = j.val; rw [e5]; omega

/-- WHAT POINT t WRITES BACK is block t of the row-scaled product of the whole arrays. -/
theorem flushed (c : Dev nD) (t : Fin cfg0.N) :
    (dat0 V c).flushed 3 t
      = ((cfg0.win 3).blk t).view.read (Elt Ideal) (scaledProduct (xArr V c) (sArr V c) (wArr V c)) := by
  show (cfg0.win 3).cut (grid0.coords t) ((dat0 V c).after 3 t) = _
  rw [after0_3]
  unfold out0_3
  rw [View.canon_unit_zero zero_offsets]
  simp only [View.ld_unit_zero (S := S2000x1433) zero_offsets, View.ld_unit_zero (S := S2000x1) zero_offsets,
    View.ld_unit_zero (S := S1433x16) zero_offsets]
  rw [payload]
  obtain ⟨-, -, -, -, -, -, e6, e7⟩ := block_indices t
  have ht : t.val < 50 := N_0 ▸ t.isLt
  show (fun y : S2000x16.Idx => scaledProduct (M := 2000) (K := 1433) (N := 16) (iblk0 V c 0 t) (iblk0 V c 1 t) (iblk0 V c 2 t) y)
    = fun y : S2000x16.Idx => scaledProduct (xArr V c) (sArr V c) (wArr V c) (((cfg0.win 3).blk t).view.emb y)
  funext y
  obtain ⟨p, j, rfl⟩ : ∃ (p : Fin 2000) (j : Fin 16), y = ix2 p j := ⟨y 0, y 1, eq_ix2 y⟩
  have hemb : ((cfg0.win 3).blk t).view.emb (ix2 p j) = ix2 (⟨t.val * 2000 + p.val, by omega⟩ : Fin 100000) j := by
    funext a
    apply Fin.ext
    match a with
    | ⟨0, _⟩ => show win0_3.index t 0 * 2000 + 1 * p.val = t.val * 2000 + p.val; rw [e6]; omega
    | ⟨1, _⟩ => show win0_3.index t 1 * 16 + 1 * j.val = j.val; rw [e7]; omega
  refine Eq.trans ?_ (congrArg (scaledProduct (xArr V c) (sArr V c) (wArr V c)) hemb.symm)
  exact scaledProduct_rows (xArr V c) (sArr V c) (wArr V c) (iblk0 V c 0 t) (iblk0 V c 1 t) (iblk0 V c 2 t) p _ j
    (fun q => x_block V c t p q _ rfl) (s_block V c t p _ rfl) (fun q => w_block V c t q j)

/-- An index of the result array is in point t's block iff each coordinate is in the block's range on its axis. -/
theorem mem_block (t : Fin cfg0.N) (i : S100000x16.Idx) :
    i ∈ ((cfg0.win 3).blk t).view.set ↔ ∀ a : Fin 2, win0_3.index t a * S2000x16.size a ≤ (i a).val
      ∧ (i a).val < win0_3.index t a * S2000x16.size a + S2000x16.size a := by
  show i ∈ ((View.whole main_v14).slice (win0_3.rect t)).set ↔ _
  rw [View.set_slice_whole, Rect.mem_set_unit]
  exact Iff.rfl

/-- THE RESULT ARRAY after the region: the row-scaled product of x, the scales and w as the region found them. Row r is
    written by block r / 2000. -/
theorem final (c : Dev nD) :
    (dat0 V c).arrAt 3 cfg0.N = scaledProduct (xArr V c) (sArr V c) (wArr V c) :=
  (dat0 V c).arrAt_eq_of_cover 3 (scaledProduct (xArr V c) (sArr V c) (wArr V c)) (fun t _ => flushed V c t) fun i => by
    have hi0 : (i 0).val < 100000 := (i 0).isLt
    have hi1 : (i 1).val < 16 := (i 1).isLt
    have hN : cfg0.N = 50 := N_0
    obtain ⟨-, -, -, -, -, -, e6, e7⟩ := block_indices ⟨(i 0).val / 2000, by rw [hN]; omega⟩
    refine ⟨⟨(i 0).val / 2000, by rw [hN]; omega⟩, flush0_3 _, ?_⟩
    rw [mem_block]
    intro a
    match a with
    | ⟨0, _⟩ =>
      show win0_3.index ⟨(i 0).val / 2000, _⟩ 0 * 2000 ≤ (i 0).val
        ∧ (i 0).val < win0_3.index ⟨(i 0).val / 2000, _⟩ 0 * 2000 + 2000
      rw [e6]
      show (i 0).val / 2000 * 2000 ≤ (i 0).val ∧ (i 0).val < (i 0).val / 2000 * 2000 + 2000
      omega
    | ⟨1, _⟩ =>
      show win0_3.index ⟨(i 0).val / 2000, _⟩ 1 * 16 ≤ (i 1).val
        ∧ (i 1).val < win0_3.index ⟨(i 0).val / 2000, _⟩ 1 * 16 + 16
      rw [e7]
      omega

end Cert.KernelIdeal.FirstProjection
-- ==== Proof.SecondProjection.lean ====
/-
  The second projection, from blocks to the whole array.

  The second kernel region has the first one's plan at other sizes: 50 blocks of 2000 rows; at block t it reads rows
  2000 t … 2000 t + 1999 of the 100000 × 16 hidden array h and of the 100000 × 1 column of scales s, all of the 16 × 7
  array w, and writes back the same rows of the 100000 × 7 result: the row-scaled product of the blocks (the block of h
  is first cast to its own shape, which changes nothing). As a row of the row-scaled product depends only on that row
  of h, its scale and w, and every row lies in exactly the block r / 2000, the result array ends holding the row-scaled
  product of h, s and w as the region found them.
-/
import proofs.«166398_j17858474016867_1_alg».proof.Proof.Gen.KernelIdeal.Frame
import proofs.«166398_j17858474016867_1_alg».proof.Proof.ScaledProduct
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SecondProjection

open Cert.KernelIdeal Cert.KernelIdeal.Gen Cert.ScaledProduct

-- the buffers' contents when the region is entered: any
variable (V : (c : Dev nD) → (b : Ref sig .tc) → Buf (Elt Ideal) ((c : Thread nD τ).loc b))

/-- The three arrays the region reads, as it finds them: the hidden array, the column of scales, the weights. -/
abbrev hArr (c : Dev nD) : FVec Ideal ⟨2, ![100000, 16]⟩ .f32 := V c main_v31
abbrev sArr (c : Dev nD) : FVec Ideal ⟨2, ![100000, 1]⟩ .f32 := V c main_v32
abbrev wArr (c : Dev nD) : FVec Ideal ⟨2, ![16, 7]⟩ .f32 := V c main_arg5

theorem zero_offsets : (![0, 0] : Fin 2 → Nat) = fun _ => 0 := funext fun a => by fin_cases a <;> rfl

/-- The body's product is the plain 2000 × 16 by 16 × 7 one. -/
theorem dot_plain : dot_S2000x16_S16x7_S2000x7_1_0_0_1_n_n = DotDims.plain 2000 16 7 := rfl

/-- What the body stores is the row-scaled product of the blocks it loaded: the cast of the block of h to its own
    shape is the block. -/
theorem payload (x0 : Vec Ideal S2000x16 .f32) (x1 : Vec Ideal S2000x1 .f32) (x2 : Vec Ideal S16x7 .f32) :
    k1_pay1 x0 x1 x2 = scaledProduct (M := 2000) (K := 16) (N := 7) x0 x1 x2 := by
  unfold k1_pay1
  rw [dot_plain, shapeCast_self x0]
  exact block_payload none x0 x1 x2 _ _

/-- The block indices over the grid: block t of h, of the scales and of the result starts at row block t and column
    block 0; w is read whole at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t of h is row 2000 t + p of h. -/
theorem h_block (c : Dev nD) (t : Fin cfg1.N) (p : Fin 2000) (q : Fin 16) (i : Fin 100000)
    (hi : i.val = t.val * 2000 + p.val) :
    (iblk1 V c 0 t : Vec Ideal S2000x16 .f32) (ix2 p q) = hArr V c (ix2 i q) := by
  obtain ⟨e0, e1, -⟩ := block_indices t
  unfold iblk1
  rw [View.read_apply]
  show V c main_v31 _ = V c main_v31 _
  congr 1
  funext a
  apply Fin.ext
  match a with
  | ⟨0, _⟩ => show win1_0.index t 0 * 2000 + 1 * p.val = i.val; rw [e0, hi]; omega
  | ⟨1, _⟩ => show win1_0.index t 1 * 16 + 1 * q.val = q.val; rw [e1]; omega

/-- Row p of block t of the scales is row 2000 t + p of the scales. -/
theorem s_block (c : Dev nD) (t : Fin cfg1.N) (p : Fin 2000) (i : Fin 100000)
    (hi : i.val = t.val * 2000 + p.val) :
    (iblk1 V c 1 t : Vec Ideal S2000x1 .f32) (ix2 p 0) = sArr V c (ix2 i 0) := by
  obtain ⟨-, -, e2, e3, -⟩ := block_indices t
  unfold iblk1
  rw [View.read_apply]
  show V c main_v32 _ = V c main_v32 _
  congr 1
  funext a
  apply Fin.ext
  match a with
  | ⟨0, _⟩ => show win1_1.index t 0 * 2000 + 1 * p.val = i.val; rw [e2, hi]; omega
  | ⟨1, _⟩ => show win1_1.index t 1 * 1 + 1 * (0 : Fin 1).val = (0 : Fin 1).val; rw [e3]; rfl

/-- The block of w at any point is w. -/
theorem w_block (c : Dev nD) (t : Fin cfg1.N) (q : Fin 16) (j : Fin 7) :
    (iblk1 V c 2 t : Vec Ideal S16x7 .f32) (ix2 q j) = wArr V c (ix2 q j) := by
  obtain ⟨-, -, -, -, e4, e5, -⟩ := block_indices t
  unfold iblk1
  rw [View.read_apply]
  show V c main_arg5 _ = V c main_arg5 _
  congr 1
  funext a
  apply Fin.ext
  match a with
  | ⟨0, _⟩ => show win1_2.index t 0 * 16 + 1 * q.val = q.val; rw [e4]; omega
  | ⟨1, _⟩ => show win1_2.index t 1 * 7 + 1 * j.val = j.val; rw [e5]; omega

/-- WHAT POINT t WRITES BACK is block t of the row-scaled product of the whole arrays. -/
theorem flushed (c : Dev nD) (t : Fin cfg1.N) :
    (dat1 V c).flushed 3 t
      = ((cfg1.win 3).blk t).view.read (Elt Ideal) (scaledProduct (hArr V c) (sArr V c) (wArr V c)) := by
  show (cfg1.win 3).cut (grid1.coords t) ((dat1 V c).after 3 t) = _
  rw [after1_3]
  unfold out1_3
  rw [View.canon_unit_zero zero_offsets]
  simp only [View.ld_unit_zero (S := S2000x16) zero_offsets, View.ld_unit_zero (S := S2000x1) zero_offsets,
    View.ld_unit_zero (S := S16x7) zero_offsets]
  rw [payload]
  obtain ⟨-, -, -, -, -, -, e6, e7⟩ := block_indices t
  have ht : t.val < 50 := N_1 ▸ t.isLt
  show (fun y : S2000x7.Idx => scaledProduct (M := 2000) (K := 16) (N := 7) (iblk1 V c 0 t) (iblk1 V c 1 t) (iblk1 V c 2 t) y)
    = fun y : S2000x7.Idx => scaledProduct (hArr V c) (sArr V c) (wArr V c) (((cfg1.win 3).blk t).view.emb y)
  funext y
  obtain ⟨p, j, rfl⟩ : ∃ (p : Fin 2000) (j : Fin 7), y = ix2 p j := ⟨y 0, y 1, eq_ix2 y⟩
  have hemb : ((cfg1.win 3).blk t).view.emb (ix2 p j) = ix2 (⟨t.val * 2000 + p.val, by omega⟩ : Fin 100000) j := by
    funext a
    apply Fin.ext
    match a with
    | ⟨0, _⟩ => show win1_3.index t 0 * 2000 + 1 * p.val = t.val * 2000 + p.val; rw [e6]; omega
    | ⟨1, _⟩ => show win1_3.index t 1 * 7 + 1 * j.val = j.val; rw [e7]; omega
  refine Eq.trans ?_ (congrArg (scaledProduct (hArr V c) (sArr V c) (wArr V c)) hemb.symm)
  exact scaledProduct_rows (hArr V c) (sArr V c) (wArr V c) (iblk1 V c 0 t) (iblk1 V c 1 t) (iblk1 V c 2 t) p _ j
    (fun q => h_block V c t p q _ rfl) (s_block V c t p _ rfl) (fun q => w_block V c t q j)

/-- An index of the result array is in point t's block iff each coordinate is in the block's range on its axis. -/
theorem mem_block (t : Fin cfg1.N) (i : S100000x7.Idx) :
    i ∈ ((cfg1.win 3).blk t).view.set ↔ ∀ a : Fin 2, win1_3.index t a * S2000x7.size a ≤ (i a).val
      ∧ (i a).val < win1_3.index t a * S2000x7.size a + S2000x7.size a := by
  show i ∈ ((View.whole main_v33).slice (win1_3.rect t)).set ↔ _
  rw [View.set_slice_whole, Rect.mem_set_unit]
  exact Iff.rfl

/-- THE RESULT ARRAY after the region: the row-scaled product of h, the scales and w as the region found them. Row r is
    written by block r / 2000. -/
theorem final (c : Dev nD) :
    (dat1 V c).arrAt 3 cfg1.N = scaledProduct (hArr V c) (sArr V c) (wArr V c) :=
  (dat1 V c).arrAt_eq_of_cover 3 (scaledProduct (hArr V c) (sArr V c) (wArr V c)) (fun t _ => flushed V c t) fun i => by
    have hi0 : (i 0).val < 100000 := (i 0).isLt
    have hi1 : (i 1).val < 7 := (i 1).isLt
    have hN : cfg1.N = 50 := N_1
    obtain ⟨-, -, -, -, -, -, e6, e7⟩ := block_indices ⟨(i 0).val / 2000, by rw [hN]; omega⟩
    refine ⟨⟨(i 0).val / 2000, by rw [hN]; omega⟩, flush1_3 _, ?_⟩
    rw [mem_block]
    intro a
    match a with
    | ⟨0, _⟩ =>
      show win1_3.index ⟨(i 0).val / 2000, _⟩ 0 * 2000 ≤ (i 0).val
        ∧ (i 0).val < win1_3.index ⟨(i 0).val / 2000, _⟩ 0 * 2000 + 2000
      rw [e6]
      show (i 0).val / 2000 * 2000 ≤ (i 0).val ∧ (i 0).val < (i 0).val / 2000 * 2000 + 2000
      omega
    | ⟨1, _⟩ =>
      show win1_3.index ⟨(i 0).val / 2000, _⟩ 1 * 7 ≤ (i 1).val
        ∧ (i 1).val < win1_3.index ⟨(i 0).val / 2000, _⟩ 1 * 7 + 7
      rw [e7]
      omega

end Cert.KernelIdeal.SecondProjection
-- ==== Proof.Layers.lean ====
/-
  The host operations the two programs share, as three functions.

  Around its two projections each program does the same things with the same host operations: it counts the edges
  leaving (or entering) each node and takes 1 / sqrt (max (count, 1)) (`degreeNorm`); after a projection h it reads row
  src e of h for every edge e (a negative index counted from the end), sums those rows into row dst e, scales row i by
  the norm of node i's incoming count and adds the bias — followed by a maximum with zero in the hidden layer
  (`hiddenLayer`), and by nothing in the output layer (`outputLayer`). Naming them lets a proof say that two values
  are the same function of equal inputs without ever opening a gather or a scattered sum.
-/
import proofs.«166398_j17858474016867_1_alg».proof.Proof.Gen.KernelIdeal

noncomputable section

namespace Cert.KernelIdeal.Layers

open Idealize.ShloMosaic Cert.KernelIdeal Cert.KernelIdeal.Gen

variable {F : FTy → Type} [FloatOps F]

/-- For each of the 100000 nodes, 1 / sqrt (max (d, 1)) where d is the number of the 3200000 edges whose endpoint
    (given by `a`) is that node: ones summed into the nodes the edges point at, then the maximum with one and the
    reciprocal square root. -/
def degreeNorm (a : (⟨S3200000, .i32⟩ : BufTy).Contents (Elt F)) : (⟨S100000, .f32⟩ : BufTy).Contents (Elt F) :=
  Host.rsqrt (maximumf
    (Host.scatterAdd scatter_S100000_S3200000x1_S3200000_n_0_0_1
      (broadcastInDim S100000 ![] bcast_S_S100000 (constant S_ .f32 0x00000000#32))
      (broadcastInDim S3200000x1 ![0] bcast_S3200000_S3200000x1_0 a)
      (broadcastInDim S3200000 ![] bcast_S_S3200000 (constant S_ .f32 0x3F800000#32)))
    (broadcastInDim S100000 ![] bcast_S_S100000 (constant S_ .f32 0x3F800000#32)))

/-- The edges' source nodes as row indices: a negative index has 100000 added, and the vector is made a column. -/
def sourceRows (src : (⟨S3200000, .i32⟩ : BufTy).Contents (Elt F)) : (⟨S3200000x1, .i32⟩ : BufTy).Contents (Elt F) :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- THE HIDDEN LAYER after its projection h: the rows of h at the edges' sources summed into the edges'
    destinations, row i scaled by the destination norm of node i, the bias added, and the maximum with zero. -/
def hiddenLayer (h : (⟨S100000x16, .f32⟩ : BufTy).Contents (Elt F)) (nd : (⟨S100000, .f32⟩ : BufTy).Contents (Elt F))
    (src dst : (⟨S3200000, .i32⟩ : BufTy).Contents (Elt F)) (b : (⟨S16, .f32⟩ : BufTy).Contents (Elt F)) :
    (⟨S100000x16, .f32⟩ : BufTy).Contents (Elt F) :=
  maximumf
    (addf
      (mulf
        (Host.scatterAdd scatter_S100000x16_S3200000x1_S3200000x16_1_0_0_1
          (broadcastInDim S100000x16 ![] bcast_S_S100000x16 (constant S_ .f32 0x00000000#32))
          (broadcastInDim S3200000x1 ![0] bcast_S3200000_S3200000x1_0 dst)
          (Host.gather gather_S100000x16_S3200000x1_S3200000x16_1_0_n_n_0_1_116 h (sourceRows src)))
        (broadcastInDim S100000x16 ![0, 1] bcast_S100000x1_S100000x16_0_1
          (broadcastInDim S100000x1 ![0] bcast_S100000_S100000x1_0 nd)))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- THE OUTPUT LAYER after its projection h: the rows of h at the edges' sources summed into the edges'
    destinations, row i scaled by the destination norm of node i, and the bias added. -/
def outputLayer (h : (⟨S100000x7, .f32⟩ : BufTy).Contents (Elt F)) (nd : (⟨S100000, .f32⟩ : BufTy).Contents (Elt F))
    (src dst : (⟨S3200000, .i32⟩ : BufTy).Contents (Elt F)) (b : (⟨S7, .f32⟩ : BufTy).Contents (Elt F)) :
    (⟨S100000x7, .f32⟩ : BufTy).Contents (Elt F) :=
  addf
    (mulf
      (Host.scatterAdd scatter_S100000x7_S3200000x1_S3200000x7_1_0_0_1
        (broadcastInDim S100000x7 ![] bcast_S_S100000x7 (constant S_ .f32 0x00000000#32))
        (broadcastInDim S3200000x1 ![0] bcast_S3200000_S3200000x1_0 dst)
        (Host.gather gather_S100000x7_S3200000x1_S3200000x7_1_0_n_n_0_1_17 h (sourceRows src)))
      (broadcastInDim S100000x7 ![0, 1] bcast_S100000x1_S100000x7_0_1
        (broadcastInDim S100000x1 ![0] bcast_S100000_S100000x1_0 nd)))
    (broadcastInDim S100000x7 ![0, 1] bcast_S1x7_S100000x7_0_1 (broadcastInDim S1x7 ![1] bcast_S7_S1x7_1 b))

end Cert.KernelIdeal.Layers
-- ==== Proof.Network.lean ====
/-
  The whole computation as one function of the seven arguments, over the extended reals.

  With ns and nd the degree norms of the edges' sources and destinations,

      network = outputLayer (P₂ (hiddenLayer (P₁ features ns W1) nd src dst b1) ns W2) nd src dst b2

  where P₁ and P₂ are the row-scaled products (rows scaled by the column of ns) at sizes 100000 × 1433 · 1433 × 16 and
  100000 × 16 · 16 × 7. Both programs compute this function: the kernel its two products block by block, the reference
  on whole arrays; everything else is shared.
-/
import proofs.«166398_j17858474016867_1_alg».proof.Proof.Layers
import proofs.«166398_j17858474016867_1_alg».proof.Proof.ScaledProduct

noncomputable section

namespace Cert.KernelIdeal.Layers

open Idealize.ShloMosaic Cert.KernelIdeal Cert.KernelIdeal.Gen Cert.ScaledProduct

/-- The column of source norms the two projections scale their rows by: the vector of norms reshaped to 100000 × 1. -/
def normColumn (src : (⟨S3200000, .i32⟩ : BufTy).Contents (Elt Ideal)) : FVec Ideal ⟨2, ![100000, 1]⟩ .f32 :=
  shapeCast S100000x1 (degreeNorm (F := Ideal) src) shapeCasts_S100000_S100000x1

/-- The two layers: project (rows scaled by the source norms), aggregate along the edges, scale by the destination
    norms, add the bias; a maximum with zero between them. -/
def network (x : (⟨S100000x1433, .f32⟩ : BufTy).Contents (Elt Ideal))
    (src dst : (⟨S3200000, .i32⟩ : BufTy).Contents (Elt Ideal))
    (w1 : (⟨S1433x16, .f32⟩ : BufTy).Contents (Elt Ideal)) (b1 : (⟨S16, .f32⟩ : BufTy).Contents (Elt Ideal))
    (w2 : (⟨S16x7, .f32⟩ : BufTy).Contents (Elt Ideal)) (b2 : (⟨S7, .f32⟩ : BufTy).Contents (Elt Ideal)) :
    (⟨S100000x7, .f32⟩ : BufTy).Contents (Elt Ideal) :=
  outputLayer
    (scaledProduct (M := 100000) (K := 16) (N := 7)
      (hiddenLayer (scaledProduct (M := 100000) (K := 1433) (N := 16) x (normColumn src) w1) (degreeNorm dst) src dst b1)
      (normColumn src) w2)
    (degreeNorm dst) src dst b2

end Cert.KernelIdeal.Layers
-- ==== Proof.KernelValue.lean ====
/-
  The kernel program's result, read off its run.

  The run's last boundary contents are a fold through @main's segments: a stretch of host operations maps the
  contents before it to the contents after it, a kernel region replaces its result array by what its write-backs leave
  and keeps every other buffer. Read at the result buffer and walked back to the launch memory, boundary by boundary,
  the fold is `network` of the seven arguments:
    · before the first region the host operations have computed the two degree norms and the column of source norms,
      and no argument has been written;
    · the first region leaves the row-scaled product of the features, that column and W1;
    · the operations up to the second region make the hidden layer of it, and the same column again;
    · the second region leaves the row-scaled product of the hidden layer, the column and W2;
    · the last operations make the output layer of it.
  What the stretches of host operations do is the same whatever the float values are, so those steps are stated for
  any values; only the two regions' results, and so the result, are read over the extended reals.
-/
import proofs.«166398_j17858474016867_1_alg».proof.Proof.Gen.KernelIdeal.Frame
import proofs.«166398_j17858474016867_1_alg».proof.Proof.FirstProjection
import proofs.«166398_j17858474016867_1_alg».proof.Proof.SecondProjection
import proofs.«166398_j17858474016867_1_alg».proof.Proof.Network
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Layers Cert.ScaledProduct

/-- Opens the stretches of host operations in a boundary's contents and computes what one buffer holds after them. -/
local macro "read_stretches" : tactic =>
  `(tactic| (dsimp only [W1, W3, W4, W5, W7, hostOps0, hostOps1, hostOps1_1, hostOps1_2, hostOps2]; after_results_simp))

/-! # The stretches of host operations, for any float values -/

section Stretches

variable {F : FTy → Type} [FloatOps F]
variable (m : (ℓ : Loc nD τ sig) → Buf (Elt F) ℓ) (ρ : Dev nD → PrngReg) (c : Dev nD)

/-! ## Before the first region -/

theorem entry1_arg0 : W1 m ρ c (Proc.devRef .tc main_arg0) = m ((c : Thread nD τ).loc main_arg0) := by
  read_stretches <;> rfl
theorem entry1_arg1 : W1 m ρ c (Proc.devRef .tc main_arg1) = m ((c : Thread nD τ).loc main_arg1) := by
  read_stretches <;> rfl
theorem entry1_arg2 : W1 m ρ c (Proc.devRef .tc main_arg2) = m ((c : Thread nD τ).loc main_arg2) := by
  read_stretches <;> rfl
theorem entry1_arg3 : W1 m ρ c (Proc.devRef .tc main_arg3) = m ((c : Thread nD τ).loc main_arg3) := by
  read_stretches <;> rfl
theorem entry1_arg4 : W1 m ρ c (Proc.devRef .tc main_arg4) = m ((c : Thread nD τ).loc main_arg4) := by
  read_stretches <;> rfl
theorem entry1_arg5 : W1 m ρ c (Proc.devRef .tc main_arg5) = m ((c : Thread nD τ).loc main_arg5) := by
  read_stretches <;> rfl
theorem entry1_arg6 : W1 m ρ c (Proc.devRef .tc main_arg6) = m ((c : Thread nD τ).loc main_arg6) := by
  read_stretches <;> rfl

/-- The norms of the edges' source counts. -/
theorem entry1_ns : W1 m ρ c (Proc.devRef .tc main_v9) = degreeNorm (m ((c : Thread nD τ).loc main_arg1)) := by
  read_stretches <;> rfl
/-- The norms of the edges' destination counts. -/
theorem entry1_nd : W1 m ρ c (Proc.devRef .tc main_v12) = degreeNorm (m ((c : Thread nD τ).loc main_arg2)) := by
  read_stretches <;> rfl
/-- The source norms as a column. -/
theorem entry1_column : W1 m ρ c (Proc.devRef .tc main_v13)
    = shapeCast S100000x1 (degreeNorm (m ((c : Thread nD τ).loc main_arg1))) shapeCasts_S100000_S100000x1 := by
  read_stretches <;> rfl

/-! ## After the first region: what it does not write -/

theorem exit1_ns : W2 m ρ c (Proc.devRef .tc main_v9) = degreeNorm (m ((c : Thread nD τ).loc main_arg1)) :=
  (W2_of_ne m ρ c main_v9 (by decide)).trans (entry1_ns m ρ c)
theorem exit1_nd : W2 m ρ c (Proc.devRef .tc main_v12) = degreeNorm (m ((c : Thread nD τ).loc main_arg2)) :=
  (W2_of_ne m ρ c main_v12 (by decide)).trans (entry1_nd m ρ c)
theorem exit1_arg1 : W2 m ρ c (Proc.devRef .tc main_arg1) = m ((c : Thread nD τ).loc main_arg1) :=
  (W2_of_ne m ρ c main_arg1 (by decide)).trans (entry1_arg1 m ρ c)
theorem exit1_arg2 : W2 m ρ c (Proc.devRef .tc main_arg2) = m ((c : Thread nD τ).loc main_arg2) :=
  (W2_of_ne m ρ c main_arg2 (by decide)).trans (entry1_arg2 m ρ c)
theorem exit1_arg4 : W2 m ρ c (Proc.devRef .tc main_arg4) = m ((c : Thread nD τ).loc main_arg4) :=
  (W2_of_ne m ρ c main_arg4 (by decide)).trans (entry1_arg4 m ρ c)
theorem exit1_arg5 : W2 m ρ c (Proc.devRef .tc main_arg5) = m ((c : Thread nD τ).loc main_arg5) :=
  (W2_of_ne m ρ c main_arg5 (by decide)).trans (entry1_arg5 m ρ c)
theorem exit1_arg6 : W2 m ρ c (Proc.devRef .tc main_arg6) = m ((c : Thread nD τ).loc main_arg6) :=
  (W2_of_ne m ρ c main_arg6 (by decide)).trans (entry1_arg6 m ρ c)

/-! ## Before the second region -/

/-- The hidden layer of the first region's result. -/
theorem entry2_hidden : W5 m ρ c (Proc.devRef .tc main_v31)
    = hiddenLayer (W2 m ρ c (Proc.devRef .tc main_v14)) (W2 m ρ c (Proc.devRef .tc main_v12))
        (W2 m ρ c (Proc.devRef .tc main_arg1)) (W2 m ρ c (Proc.devRef .tc main_arg2)) (W2 m ρ c (Proc.devRef .tc main_arg4)) := by
  read_stretches <;> rfl
/-- The source norms as a column, again. -/
theorem entry2_column : W5 m ρ c (Proc.devRef .tc main_v32)
    = shapeCast S100000x1 (W2 m ρ c (Proc.devRef .tc main_v9)) shapeCasts_S100000_S100000x1 := by
  read_stretches <;> rfl
theorem entry2_nd : W5 m ρ c (Proc.devRef .tc main_v12) = W2 m ρ c (Proc.devRef .tc main_v12) := by
  read_stretches <;> rfl
theorem entry2_arg1 : W5 m ρ c (Proc.devRef .tc main_arg1) = W2 m ρ c (Proc.devRef .tc main_arg1) := by
  read_stretches <;> rfl
theorem entry2_arg2 : W5 m ρ c (Proc.devRef .tc main_arg2) = W2 m ρ c (Proc.devRef .tc main_arg2) := by
  read_stretches <;> rfl
theorem entry2_arg5 : W5 m ρ c (Proc.devRef .tc main_arg5) = W2 m ρ c (Proc.devRef .tc main_arg5) := by
  read_stretches <;> rfl
theorem entry2_arg6 : W5 m ρ c (Proc.devRef .tc main_arg6) = W2 m ρ c (Proc.devRef .tc main_arg6) := by
  read_stretches <;> rfl

/-! ## After the second region: what it does not write -/

theorem exit2_nd : W6 m ρ c (Proc.devRef .tc main_v12) = W5 m ρ c (Proc.devRef .tc main_v12) :=
  W6_of_ne m ρ c main_v12 (by decide)
theorem exit2_arg1 : W6 m ρ c (Proc.devRef .tc main_arg1) = W5 m ρ c (Proc.devRef .tc main_arg1) :=
  W6_of_ne m ρ c main_arg1 (by decide)
theorem exit2_arg2 : W6 m ρ c (Proc.devRef .tc main_arg2) = W5 m ρ c (Proc.devRef .tc main_arg2) :=
  W6_of_ne m ρ c main_arg2 (by decide)
theorem exit2_arg6 : W6 m ρ c (Proc.devRef .tc main_arg6) = W5 m ρ c (Proc.devRef .tc main_arg6) :=
  W6_of_ne m ρ c main_arg6 (by decide)

/-! ## At the return -/

/-- The output layer of the second region's result. -/
theorem return_output : W7 m ρ c (Proc.devRef .tc main_v49)
    = outputLayer (W6 m ρ c (Proc.devRef .tc main_v33)) (W6 m ρ c (Proc.devRef .tc main_v12))
        (W6 m ρ c (Proc.devRef .tc main_arg1)) (W6 m ρ c (Proc.devRef .tc main_arg2)) (W6 m ρ c (Proc.devRef .tc main_arg6)) := by
  read_stretches <;> rfl

end Stretches

/-! # The two regions, and the result, over the extended reals -/

section Values

variable (m : (ℓ : Loc nD τ sig) → Buf (Elt Ideal) ℓ) (ρ : Dev nD → PrngReg) (c : Dev nD)

/-- The column the first region is entered with is the column of source norms. -/
theorem entry1_normColumn : W1 m ρ c (Proc.devRef .tc main_v13) = normColumn (m ((c : Thread nD τ).loc main_arg1)) :=
  entry1_column m ρ c

/-- The first region's result: the row-scaled product of the features, the column of source norms and W1. -/
theorem exit1_projection : W2 m ρ c (Proc.devRef .tc main_v14)
    = scaledProduct (M := 100000) (K := 1433) (N := 16) (m ((c : Thread nD τ).loc main_arg0)) (normColumn (m ((c : Thread nD τ).loc main_arg1))) (m ((c : Thread nD τ).loc main_arg3)) := by
  refine (W2_arr m ρ c 3).trans ((FirstProjection.final (V1 m ρ) c).trans ?_)
  show scaledProduct (M := 100000) (K := 1433) (N := 16) (W1 m ρ c (Proc.devRef .tc main_arg0))
    (W1 m ρ c (Proc.devRef .tc main_v13)) (W1 m ρ c (Proc.devRef .tc main_arg3)) = _
  rw [entry1_arg0, entry1_normColumn, entry1_arg3]

/-- The second region's result: the row-scaled product of the hidden layer, the column of source norms and W2, as the
    region found them. -/
theorem exit2_projection : W6 m ρ c (Proc.devRef .tc main_v33)
    = scaledProduct (M := 100000) (K := 16) (N := 7) (W5 m ρ c (Proc.devRef .tc main_v31))
        (W5 m ρ c (Proc.devRef .tc main_v32)) (W5 m ρ c (Proc.devRef .tc main_arg5)) :=
  (W6_arr m ρ c 3).trans (SecondProjection.final (V5 m ρ) c)

/-- THE RESULT of the kernel program's run is `network` of the launch contents of its seven arguments. -/
theorem result : W7 m ρ c (Proc.devRef .tc main_v49)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [return_output, exit2_projection, exit2_nd, exit2_arg1, exit2_arg2, exit2_arg6,
    entry2_hidden, entry2_column, entry2_nd, entry2_arg1, entry2_arg2, entry2_arg5, entry2_arg6,
    exit1_projection, exit1_ns, exit1_nd, exit1_arg1, exit1_arg2, exit1_arg4, exit1_arg5, exit1_arg6]
  rfl

end Values

end Cert.KernelIdeal.Fold
-- ==== Proof.RefSide.lean ====
/-
  The reference's result is `network` of its arguments.

  The reference runs the same host operations as the kernel program except at the two projections, where it multiplies
  the array by the source norms broadcast to its shape and takes the host's product with the weights. Read through the
  generated stage functions: the two norms are `degreeNorm` of the edges' endpoints; each projection stage is the
  row-scaled product of its array, the column of source norms and its weights (a broadcast along the rows reads the
  row's norm, and the product of matrices is the sum over the contracted coordinate); the stages from a projection to
  the next one, and to the result, are `hiddenLayer` and `outputLayer` of that projection by their very definitions.
-/
import proofs.«166398_j17858474016867_1_alg».proof.Proof.Gen.ReferenceIdeal.Run
import proofs.«166398_j17858474016867_1_alg».proof.Proof.Gen.ReferenceIdeal.Read
import proofs.«166398_j17858474016867_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Read Cert.KernelIdeal.Layers Cert.ScaledProduct

variable (x0 : (⟨S100000x1433, .f32⟩ : BufTy).Contents (Elt Ideal)) (x1 x2 : (⟨S3200000, .i32⟩ : BufTy).Contents (Elt Ideal))
  (x3 : (⟨S1433x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal))

/-- The reference's two products are the plain ones. -/
theorem dot1_plain : dot_S100000x1433_S1433x16_S100000x16_1_0_0_1_n_n = DotDims.plain 100000 1433 16 := rfl
theorem dot2_plain : dot_S100000x16_S16x7_S100000x7_1_0_0_1_n_n = DotDims.plain 100000 16 7 := rfl

/-- The norms of the source counts and of the destination counts. -/
theorem source_norm : val_main_v9 (F := Ideal) x1 = degreeNorm x1 := rfl
theorem dest_norm : val_main_v12 (F := Ideal) x2 = degreeNorm x2 := rfl

/-- THE FIRST PROJECTION STAGE: the features times the source norms broadcast to their shape, times W1, is the
    row-scaled product of the features, the column of source norms and W1. -/
theorem first_projection : val_main_v16 (F := Ideal) x0 x1 x3
    = scaledProduct (M := 100000) (K := 1433) (N := 16) x0 (normColumn x1) x3 := by
  unfold val_main_v16 val_main_v15 val_main_v14 val_main_v13
  rw [dot1_plain, source_norm]
  exact host_stage none .single x0 (degreeNorm x1) x3 _ _ _

/-- From the first projection to the hidden layer: the shared operations. -/
theorem hidden : val_main_v33 (F := Ideal) x0 x1 x2 x3 x4
    = hiddenLayer (val_main_v16 (F := Ideal) x0 x1 x3) (val_main_v12 (F := Ideal) x2) x1 x2 x4 := rfl

/-- THE SECOND PROJECTION STAGE: the hidden layer times the source norms broadcast to its shape, times W2, is the
    row-scaled product of the hidden layer, the column of source norms and W2. -/
theorem second_projection : val_main_v37 (F := Ideal) x0 x1 x2 x3 x4 x5
    = scaledProduct (M := 100000) (K := 16) (N := 7) (val_main_v33 (F := Ideal) x0 x1 x2 x3 x4) (normColumn x1) x5 := by
  unfold val_main_v37 val_main_v36 val_main_v35 val_main_v34
  rw [dot2_plain, source_norm]
  exact host_stage none .single (val_main_v33 (F := Ideal) x0 x1 x2 x3 x4) (degreeNorm x1) x5 _ _ _

/-- From the second projection to the result: the shared operations. -/
theorem output : val_main_v53 (F := Ideal) x0 x1 x2 x3 x4 x5 x6
    = outputLayer (val_main_v37 (F := Ideal) x0 x1 x2 x3 x4 x5) (val_main_v12 (F := Ideal) x2) x1 x2 x6 := rfl

/-- The last stage is `network` of the arguments. -/
theorem stages : val_main_v53 (F := Ideal) x0 x1 x2 x3 x4 x5 x6 = network x0 x1 x2 x3 x4 x5 x6 := by
  rw [output, second_projection, hidden, first_projection, dest_norm]
  rfl

/-- THE RESULT of the reference's run is `network` of the launch contents of its seven arguments. -/
theorem result (m : (ℓ : Loc nD τ sig) → Buf (Elt Ideal) ℓ) (c : Dev nD) :
    Cert.ReferenceIdeal.Value.res_main_v53 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v53_eq m c).trans (stages _ _ _ _ _ _ _)

end Cert.ReferenceIdeal.RefValue
-- ==== Proof.lean ====
/-
  A two-layer graph convolution: the kernel program against its reference, over the extended reals.

  Both programs compute, from node features x (100000 × 1433), edge lists src and dst (3200000 each), weights W1
  (1433 × 16), W2 (16 × 7) and biases b1, b2,

      ns = 1 / sqrt (max (out-degree, 1)),   nd = 1 / sqrt (max (in-degree, 1)),
      layer (h, W, b) = (sum over the edges e into node i of ((h · ns) W) (src e)) · nd (i) + b,
      result = layer (max (layer (x, W1, b1), 0), W2, b2),

  with the same host operations for the degree counts, the gathers along src, the scattered sums into dst, the scaling
  by nd, the biases and the maximum with zero. They differ only in how (h · ns) W is made: the kernel program runs a
  kernel region gridded over 50 blocks of 2000 rows, each multiplying its rows by their norms and taking the product
  with W into a zero accumulator; the reference broadcasts ns to the shape of h, multiplies, and takes one product on
  the host. At entry (i, j) both are the sum over q of (h (i, q) · ns (i)) · W (q, j), the very same sum of the very
  same products, so no law of the extended reals is needed and finiteness of the inputs is never used.

  The modules: ScaledProduct (that sum as one function; the kernel's block and the reference's stage are it),
  FirstProjection and SecondProjection (a region's result array is it of the arrays the region found: block t writes
  rows 2000 t …, and the blocks cover every row), Layers and Network (the shared operations as functions, and the whole
  computation as one function `network` of the seven arguments), KernelRun and KernelValue (the kernel program's run
  ends with its result at the fold of @main's segments, which read back boundary by boundary is `network` of the launch
  contents), RefSide (the reference's run ends at `network` of its launch contents). Here: the three frames, the
  idealization (the pass rewrote nothing, so there is nothing to preserve), and the two runs side by side from
  memories that agree on the arguments.
-/
import proofs.«166398_j17858474016867_1_alg».proof.Defs
import proofs.«166398_j17858474016867_1_alg».proof.Proof.Gen.Kernel
import proofs.«166398_j17858474016867_1_alg».proof.Proof.Gen.Kernel.Skeleton
import proofs.«166398_j17858474016867_1_alg».proof.Proof.Gen.Kernel.Launch
import proofs.«166398_j17858474016867_1_alg».proof.Proof.Gen.Kernel.Points
import proofs.«166398_j17858474016867_1_alg».proof.Proof.Gen.Kernel.Frame
import proofs.«166398_j17858474016867_1_alg».proof.Proof.Gen.KernelIdeal
import proofs.«166398_j17858474016867_1_alg».proof.Proof.Gen.KernelIdeal.Skeleton
import proofs.«166398_j17858474016867_1_alg».proof.Proof.Gen.KernelIdeal.Launch
import proofs.«166398_j17858474016867_1_alg».proof.Proof.Gen.KernelIdeal.Points
import proofs.«166398_j17858474016867_1_alg».proof.Proof.Gen.KernelIdeal.Frame
import proofs.«166398_j17858474016867_1_alg».proof.Proof.Gen.ReferenceIdeal
import proofs.«166398_j17858474016867_1_alg».proof.Proof.Gen.ReferenceIdeal.Run
import proofs.«166398_j17858474016867_1_alg».proof.Proof.Gen.Pre_finite_inputs
import proofs.«166398_j17858474016867_1_alg».proof.Proof.KernelRun
import proofs.«166398_j17858474016867_1_alg».proof.Proof.KernelValue
import proofs.«166398_j17858474016867_1_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the seven arguments both programs end with their result at `network` of those
    arguments: the kernel program by its run and the fold read back, the reference by its run and its stages. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
